-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000x1 : Shape := ⟨2, ![320000, 1]⟩
abbrev S320000x3 : Shape := ⟨2, ![320000, 3]⟩
abbrev S128x128 : Shape := ⟨2, ![128, 128]⟩
abbrev S128 : Shape := ⟨1, ![128]⟩
abbrev S_ : Shape := ⟨0, ![]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S320000x3 : S_.BroadcastsInDim S320000x3 (![] : Fin 0 → Fin S320000x3.rank)
  reducesTo_S320000x3_S_d0_1 : S320000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S320000x3_S320000_d1 : S320000x3.ReducesTo [1] S320000
  bcast_S_S320000 : S_.BroadcastsInDim S320000 (![] : Fin 0 → Fin S320000.rank)
  reducesTo_S320000_S_d0 : S320000.ReducesTo [0] S_

variable [Facts]

def fn_part1 {F : FTy → Type} [FloatOps F] (main_arg3 : FVec F S320000x3 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S320000x3 .f32 := mulf main_arg3 main_arg3
  let main_cst_8 : FVec F S_ .f32 := constant S_ .f32 0x00000000#32
  let main_v25 : FVec F S320000 .f32 := (fun x v => Host.reduceAdd x v reducesTo_S320000x3_S320000_d1 h_S_) main_v24 main_cst_8
  let main_cst_9 : FVec F S_ .f32 := constant S_ .f32 0x00000000#32
  let main_v26 : FVec F S320000 .f32 := broadcastInDim S320000 ![] bcast_S_S320000 main_cst_9
  let main_v27 : IVec S320000 1 := cmpf .ogt main_v25 main_v26
  let main_c_10 : IVec S_ 1 := constantI S_ 1 1#1
  let main_v28 : IVec S_ 1 := (fun x v => Host.reduce IntOp.andi x v reducesTo_S320000_S_d0 h_S_) main_v27 main_c_10
  let main_v29 : IVec S_ 1 := andi main_v23 main_v28
  main_v29

def fn {F : FTy → Type} [FloatOps F] (main_arg0 : FVec F S20000x128 .f32) (main_arg1 : IVec S2x320000 32) (main_arg2 : FVec F S320000x1 .f32) (main_arg3 : FVec F S320000x3 .f32) (main_arg4 : FVec F S128x128 .f32) (main_arg5 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x1 .f32 := Host.absf main_arg2
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S320000x3 .f32 := Host.absf main_arg3
  let main_cst_2 : FVec F S_ .f32 := constant S_ .f32 0x7F800000#32
  let main_v10 : FVec F S320000x3 .f32 := broadcastInDim S320000x3 ![] bcast_S_S320000x3 main_cst_2
  let main_v11 : IVec S320000x3 1 := cmpf .olt main_v9 main_v10
  let main_c_3 : IVec S_ 1 := constantI S_ 1 1#1
  let main_v12 : IVec S_ 1 := (fun x v => Host.reduce IntOp.andi x v reducesTo_S320000x3_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_v13 main_v16
-- ==== Kernel.lean ====
abbrev S20000x128 : Shape := ⟨2, ![20000, 128]⟩
abbrev S2x320000 : Shape := ⟨2, ![2, 320000]⟩
abbrev S320000x1 : Shape := ⟨2, ![320000, 1]⟩
abbrev S320000x3 : Shape := ⟨2, ![320000, 3]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x128 : Shape := ⟨2, ![320000, 128]⟩
abbrev S320000x3x128 : Shape := ⟨3, ![320000, 3, 128]⟩
abbrev S2000x128 : Shape := ⟨2, ![2000, 128]⟩
abbrev S2000x1 : Shape := ⟨2, ![2000, 1]⟩
abbrev S2000x3 : Shape := ⟨2, ![2000, 3]⟩
abbrev S2000x3x128 : Shape := ⟨3, ![2000, 3, 128]⟩
abbrev S2000 : Shape := ⟨1, ![2000]⟩
abbrev S1x128 : Shape := ⟨2, ![1, 128]⟩
abbrev S2000x1x128 : Shape := ⟨3, ![2000, 1, 128]⟩
abbrev S20000x3x128 : Shape := ⟨3, ![20000, 3, 128]⟩
abbrev S20000x256 : Shape := ⟨2, ![20000, 256]⟩

abbrev nBuf : Space → Nat
  | .hbm => 38
  | .vmem => 12
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S320000x1, .f32⟩
  | .hbm, ⟨3, _⟩ => ⟨S320000x3, .f32⟩
  | .hbm, ⟨4, _⟩ => ⟨S128x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S128x128, .f32⟩
  | .hbm, ⟨20, _⟩ => ⟨S320000x128, .f32⟩
  | .hbm, ⟨21, _⟩ => ⟨S320000x3x128, .f32⟩
  | .hbm, ⟨22, _⟩ => ⟨S_, .f32⟩
  | .hbm, ⟨23, _⟩ => ⟨S20000x128, .f32⟩
  | .hbm, ⟨24, _⟩ => ⟨S320000x1, .i32⟩
  | .hbm, ⟨25, _⟩ => ⟨S20000x128, .f32⟩
  | .hbm, ⟨26, _⟩ => ⟨S_, .f32⟩
  | .hbm, ⟨27, _⟩ => ⟨S20000x3x128, .f32⟩
  | .hbm, ⟨28, _⟩ => ⟨S320000x1, .i32⟩
  | .hbm, ⟨29, _⟩ => ⟨S20000x3x128, .f32⟩
  | .hbm, ⟨30, _⟩ => ⟨S20000x3x128, .f32⟩
  | .hbm, ⟨31, _⟩ => ⟨S_, .f32⟩
  | .hbm, ⟨32, _⟩ => ⟨S20000x128, .f32⟩
  | .hbm, ⟨33, _⟩ => ⟨S_, .f32⟩
  | .hbm, ⟨34, _⟩ => ⟨S20000x128, .f32⟩
  | .hbm, ⟨35, _⟩ => ⟨S20000x128, .f32⟩
  | .hbm, ⟨36, _⟩ => ⟨S20000x128, .f32⟩
  | .hbm, ⟨37, _⟩ => ⟨S20000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x3, .f32⟩
  | .local _ .vmem, ⟨5, _⟩ => ⟨S2000x3, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x3x128, .f32⟩
  | .local _ .vmem, ⟨11, _⟩ => ⟨S2000x3x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  transposes_S128x128_S128x128_1_0 : S128x128.Transposes [1, 0] S128x128
  inb_S2000x1_S2000x1_0_0 : ∀ a, (![0, 0] : Fin 2 → Nat) a + S2000x1.size a ≤ S2000x1.size a
  h_S2000x1 : 0 < S2000x1.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x3_S2000x3_0_0 : ∀ a, (![0, 0] : Fin 2 → Nat) a + S2000x3.size a ≤ S2000x3.size a
  h_S2000x3 : 0 < S2000x3.numel
  reduces_S2000x3_S2000 : S2000x3.Reduces [1] S2000
  shapeCasts_S2000_S2000x1 : S2000.ShapeCasts S2000x1
  broadcasts_S2000x1_S2000x3 : S2000x1.Broadcasts S2000x3
  inb_S128_S128_0 : ∀ a, (![0] : Fin 1 → Nat) a + S128.size a ≤ S128.size a
  h_S128 : 0 < S128.numel
  slices_S2000x3_o0_0_S2000x1 : S2000x3.Slices ![0, 0] S2000x1
  shapeCasts_S128_S1x128 : S128.ShapeCasts S1x128
  broadcasts_S1x128_S2000x128 : S1x128.Broadcasts S2000x128
  inb_S2000x3x128_S2000x1x128_0_0_0 : ∀ a, (![0, 0, 0] : Fin 3 → Nat) a + S2000x1x128.size a ≤ S2000x3x128.size a
  h_S2000x1x128 : 0 < S2000x1x128.numel
  shapeCasts_S2000x1x128_S2000x128 : S2000x1x128.ShapeCasts S2000x128
  shapeCasts_S2000x128_S2000x1x128 : S2000x128.ShapeCasts S2000x1x128
  slices_S2000x3_o0_1_S2000x1 : S2000x3.Slices ![0, 1] S2000x1
  inb_S2000x3x128_S2000x1x128_0_1_0 : ∀ a, (![0, 1, 0] : Fin 3 → Nat) a + S2000x1x128.size a ≤ S2000x3x128.size a
  slices_S2000x3_o0_2_S2000x1 : S2000x3.Slices ![0, 2] S2000x1
  inb_S2000x3x128_S2000x1x128_0_2_0 : ∀ a, (![0, 2, 0] : Fin 3 → Nat) a + S2000x1x128.size a ≤ S2000x3x128.size a
  bcast_S_S20000x128 : S_.BroadcastsInDim S20000x128 (![] : Fin 0 → Fin S20000x128.rank)
  bcast_S_S20000x3x128 : S_.BroadcastsInDim S20000x3x128 (![] : Fin 0 → Fin S20000x3x128.rank)
  reducesTo_S20000x3x128_S20000x128_d1 : S20000x3x128.ReducesTo [1] S20000x128
  h_S_ : 0 < S_.numel
  concatenates_S20000x128_S20000x128_S20000x256_d1 : Shape.Concatenates [S20000x128, S20000x128] S20000x256 1
  gather_S20000x128_S320000x1_S320000x128_1_0_n_n_0_1_1128_wf : GatherDims.WF S20000x128 S320000x1 S320000x128 [1] [0] [] [0] [] 1 ![1, 128]
  dot_S2000x128_S128x128_S2000x128_1_0_0_1_n_n_wf : DotDims.WF S2000x128 S128x128 S2000x128 [1] [0] [0] [1] [] []
  scatter_S20000x128_S320000x1_S320000x128_1_0_0_1_wf : ScatterDims.WF S20000x128 S320000x1 S320000x128 [1] [0] [0] 1
  scatter_S20000x3x128_S320000x1_S320000x3x128_12_0_0_1_wf : ScatterDims.WF S20000x3x128 S320000x1 S320000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S320000x128.size a
  hwx0_0 : ∀ i : grid0.Coords, EltTy.bits .f32 = 32 ∨ (Rect.block (s := S320000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S320000x1.size a
  hwx0_1 : ∀ i : grid0.Coords, EltTy.bits .f32 = 32 ∨ (Rect.block (s := S320000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S320000x3.size a
  hwx0_2 : ∀ i : grid0.Coords, EltTy.bits .f32 = 32 ∨ (Rect.block (s := S320000x3) S2000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S320000x128.size a
  hwx0_5 : ∀ i : grid0.Coords, EltTy.bits .f32 = 32 ∨ (Rect.block (s := S320000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x3x128.size a ≤ S320000x3x128.size a
  hwx0_6 : ∀ i : grid0.Coords, EltTy.bits .f32 = 32 ∨ (Rect.block (s := S320000x3x128) S2000x3x128.size (cc0_transform_6 i) (hinb0_6 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S2000x3x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000x1 : Shape := ⟨2, ![320000, 1]⟩
abbrev S320000x3 : Shape := ⟨2, ![320000, 3]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x128 : Shape := ⟨2, ![320000, 128]⟩
abbrev S320000x3x1 : Shape := ⟨3, ![320000, 3, 1]⟩
abbrev S320000x1x128 : Shape := ⟨3, ![320000, 1, 128]⟩
abbrev S320000x3x128 : Shape := ⟨3, ![320000, 3, 128]⟩
abbrev S1x1x128 : Shape := ⟨3, ![1, 1, 128]⟩
abbrev S20000x3x128 : Shape := ⟨3, ![20000, 3, 128]⟩
abbrev S20000x256 : Shape := ⟨2, ![20000, 256]⟩

abbrev nBuf : Space → Nat
  | .hbm => 53
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S320000x1, .f32⟩
  | .hbm, ⟨3, _⟩ => ⟨S320000x3, .f32⟩
  | .hbm, ⟨4, _⟩ => ⟨S128x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S320000x128, .f32⟩
  | .hbm, ⟨20, _⟩ => ⟨S320000x128, .f32⟩
  | .hbm, ⟨21, _⟩ => ⟨S_, .f32⟩
  | .hbm, ⟨22, _⟩ => ⟨S20000x128, .f32⟩
  | .hbm, ⟨23, _⟩ => ⟨S320000x1, .i32⟩
  | .hbm, ⟨24, _⟩ => ⟨S20000x128, .f32⟩
  | .hbm, ⟨25, _⟩ => ⟨S320000x3, .f32⟩
  | .hbm, ⟨26, _⟩ => ⟨S_, .f32⟩
  | .hbm, ⟨27, _⟩ => ⟨S320000, .f32⟩
  | .hbm, ⟨28, _⟩ => ⟨S320000x1, .f32⟩
  | .hbm, ⟨29, _⟩ => ⟨S320000x1, .f32⟩
  | .hbm, ⟨30, _⟩ => ⟨S320000x3, .f32⟩
  | .hbm, ⟨31, _⟩ => ⟨S320000x3, .f32⟩
  | .hbm, ⟨32, _⟩ => ⟨S320000x3x1, .f32⟩
  | .hbm, ⟨33, _⟩ => ⟨S320000x1x128, .f32⟩
  | .hbm, ⟨34, _⟩ => ⟨S320000x3x128, .f32⟩
  | .hbm, ⟨35, _⟩ => ⟨S320000x3x128, .f32⟩
  | .hbm, ⟨36, _⟩ => ⟨S320000x3x128, .f32⟩
  | .hbm, ⟨37, _⟩ => ⟨S320000x3x128, .f32⟩
  | .hbm, ⟨38, _⟩ => ⟨S1x1x128, .f32⟩
  | .hbm, ⟨39, _⟩ => ⟨S320000x3x128, .f32⟩
  | .hbm, ⟨40, _⟩ => ⟨S320000x3x128, .f32⟩
  | .hbm, ⟨41, _⟩ => ⟨S_, .f32⟩
  | .hbm, ⟨42, _⟩ => ⟨S20000x3x128, .f32⟩
  | .hbm, ⟨43, _⟩ => ⟨S320000x1, .i32⟩
  | .hbm, ⟨44, _⟩ => ⟨S20000x3x128, .f32⟩
  | .hbm, ⟨45, _⟩ => ⟨S20000x3x128, .f32⟩
  | .hbm, ⟨46, _⟩ => ⟨S_, .f32⟩
  | .hbm, ⟨47, _⟩ => ⟨S20000x128, .f32⟩
  | .hbm, ⟨48, _⟩ => ⟨S_, .f32⟩
  | .hbm, ⟨49, _⟩ => ⟨S20000x128, .f32⟩
  | .hbm, ⟨50, _⟩ => ⟨S20000x128, .f32⟩
  | .hbm, ⟨51, _⟩ => ⟨S20000x128, .f32⟩
  | .hbm, ⟨52, _⟩ => ⟨S20000x256, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  reducesTo_S320000x3_S320000_d1 : S320000x3.ReducesTo [1] S320000
  h_S_ : 0 < S_.numel
  bcast_S320000x1_S320000x3_0_1 : S320000x1.BroadcastsInDim S320000x3 (![0, 1] : Fin 2 → Fin S320000x3.rank)
  bcast_S320000x3_S320000x3x1_0_1 : S320000x3.BroadcastsInDim S320000x3x1 (![0, 1] : Fin 2 → Fin S320000x3x1.rank)
  bcast_S320000x128_S320000x1x128_0_2 : S320000x128.BroadcastsInDim S320000x1x128 (![0, 2] : Fin 2 → Fin S320000x1x128.rank)
  bcast_S320000x3x1_S320000x3x128_0_1_2 : S320000x3x1.BroadcastsInDim S320000x3x128 (![0, 1, 2] : Fin 3 → Fin S320000x3x128.rank)
  bcast_S320000x1x128_S320000x3x128_0_1_2 : S320000x1x128.BroadcastsInDim S320000x3x128 (![0, 1, 2] : Fin 3 → Fin S320000x3x128.rank)
  bcast_S128_S1x1x128_2 : S128.BroadcastsInDim S1x1x128 (![2] : Fin 1 → Fin S1x1x128.rank)
  bcast_S1x1x128_S320000x3x128_0_1_2 : S1x1x128.BroadcastsInDim S320000x3x128 (![0, 1, 2] : Fin 3 → Fin S320000x3x128.rank)
  bcast_S_S20000x3x128 : S_.BroadcastsInDim S20000x3x128 (![] : Fin 0 → Fin S20000x3x128.rank)
  reducesTo_S20000x3x128_S20000x128_d1 : S20000x3x128.ReducesTo [1] S20000x128
  concatenates_S20000x128_S20000x128_S20000x256_d1 : Shape.Concatenates [S20000x128, S20000x128] S20000x256 1
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S320000x3x128_S128x128_S320000x3x128_2_1_01_0_n_n_wf : DotDims.WF S320000x3x128 S128x128 S320000x3x128 [2] [1] [0, 1] [0] [] []
  scatter_S20000x3x128_S320000x1_S320000x3x128_12_0_0_1_wf : ScatterDims.WF S20000x3x128 S320000x1 S320000x3x128 [1, 2] [0] [0] 1

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S320000x3x128_S128x128_S320000x3x128_2_1_01_0_n_n : DotDims S320000x3x128 S128x128 S320000x3x128 where
  lhsContracting := [2]
  rhsContracting := [1]
  lhsNonContracting := [0, 1]
  rhsNonContracting := [0]
  lhsBatch := []
  rhsBatch := []
  wf := dot_S320000x3x128_S128x128_S320000x3x128_2_1_01_0_n_n_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf

class Facts : Prop extends Facts₀ where

variable [Facts]
-- ==== Proof.KBlock.lean ====
/-
  What one grid point of the kernel leaves in its two output blocks, index by index, at the extended reals.

  A point holds 2000 pairs. From the blocks x0 (gathered neighbour embeddings, 2000 × 128), x1 (cutoff weights,
  2000 × 1), x2 (displacements, 2000 × 3), x3 (the transposed weight matrix, 128 × 128) and x4 (the bias, 128) the body
  stores the weighted embeddings  x1(q) · x0(q,f)  whole, and, one spatial direction c at a time, the messages
  (x2(q,c) · rsqrt Σ_k x2(q,k)²) · (Σ_f x1(q)·x0(q,f) · x3(f,g)) + x4(g)  into the slab [·, c, ·] of the second
  block. The changes of float format before the matrix product are the identity here, and the product into a zero
  accumulator is the plain sum over the contracted feature axis.
-/
import proofs.«127203_j77223511982115_1_alg».proof.Proof.Gen.KernelIdeal.Frame
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Blk

open Cert.KernelIdeal Cert.KernelIdeal.Gen Idealize.ShloMosaic Idealize.ShloMosaic.ValueIdx

/-! ## The block's two results, by coordinates -/

/-- Pair q's weighted embedding at feature f, inside the block. -/
def wAt (x0 : FVec Ideal S2000x128 .f32) (x1 : FVec Ideal S2000x1 .f32) (q : Fin 2000) (f : Fin 128) : EReal :=
  x1 (ix2 q 0) * x0 (ix2 q f)

/-- Pair q's message in direction c at output feature g, inside the block. -/
def mAt (x0 : FVec Ideal S2000x128 .f32) (x1 : FVec Ideal S2000x1 .f32) (x2 : FVec Ideal S2000x3 .f32)
    (x3 : FVec Ideal S128x128 .f32) (x4 : FVec Ideal S128 .f32) (q : Fin 2000) (c : Fin 3) (g : Fin 128) : EReal :=
  (x2 (ix2 q c) * Ideal.rsqrt (∑ k : Fin 3, x2 (ix2 q k) * x2 (ix2 q k))) * (∑ f : Fin 128, wAt x0 x1 q f * x3 (ix2 f g))
    + x4 (ix1 g)

/-- The weighted-embedding block as one function of the block index. -/
def blkW (x0 : FVec Ideal S2000x128 .f32) (x1 : FVec Ideal S2000x1 .f32) : FVec Ideal S2000x128 .f32 :=
  fun y => wAt x0 x1 (y 0) (y 1)

/-- The message block as one function of the block index. -/
def blkM (x0 : FVec Ideal S2000x128 .f32) (x1 : FVec Ideal S2000x1 .f32) (x2 : FVec Ideal S2000x3 .f32)
    (x3 : FVec Ideal S128x128 .f32) (x4 : FVec Ideal S128 .f32) : FVec Ideal S2000x3x128 .f32 :=
  fun y => mAt x0 x1 x2 x3 x4 (y 0) (y 1) (y 2)

/-! ## The payloads read at an index -/

/-- The product of the broadcast cutoff column with the embedding block. -/
theorem pay2_apply (x1 : FVec Ideal S2000x1 .f32) (x0 : FVec Ideal S2000x128 .f32) (q : Fin 2000) (f : Fin 128) :
    k0_pay2 (F := Ideal) x1 x0 (ix2 q f) = wAt x0 x1 q f := by
  unfold k0_pay2 wAt
  show (broadcastTo S2000x128 x1 broadcasts_S2000x1_S2000x128) (ix2 q f) * (shapeCast S2000x128 x0 shapeCasts_S2000x128_S2000x128) (ix2 q f) = _
  rw [shapeCast_self, broadcastTo_apply x1 broadcasts_S2000x1_S2000x128 (ix2 q f) (ix2 q 0) (fun a => match a with
    | ⟨0, _⟩ => by show q.val = if (2000 : Nat) = 1 then 0 else q.val; rw [if_neg (by decide)]
    | ⟨1, _⟩ => by show 0 = if (1 : Nat) = 1 then 0 else f.val; rw [if_pos rfl])]

/-- The lane sum of a row's squares. -/
theorem rowsum_apply (x2 : FVec Ideal S2000x3 .f32) (q : Fin 2000) :
    multiReduction .add [1] S2000 (mulf x2 x2) 0x00000000#32 reduces_S2000x3_S2000 (.inl rfl) rfl (ix1 q)
      = ∑ k : Fin 3, x2 (ix2 q k) * x2 (ix2 q k) := by
  refine (Ideal.multiReduction_add_single (mulf x2 x2) _ reduces_S2000x3_S2000 (.inl rfl) rfl (ix1 q)).trans ?_
  refine Finset.sum_congr rfl fun k _ => ?_
  have e : (reduces_S2000x3_S2000.lift (ix1 q) k : S2000x3.Idx) = ix2 q k :=
    funext fun a => Fin.ext (by match a with | ⟨0, _⟩ => rfl | ⟨1, _⟩ => rfl)
  rw [e]; rfl

/-- The displacement scaled by the reciprocal root of its squared length. -/
theorem pay4_apply (x2 : FVec Ideal S2000x3 .f32) (q : Fin 2000) (c : Fin 3) :
    k0_pay4 (F := Ideal) x2 (ix2 q c) = x2 (ix2 q c) * Ideal.rsqrt (∑ k : Fin 3, x2 (ix2 q k) * x2 (ix2 q k)) := by
  unfold k0_pay4
  show x2 (ix2 q c) * (broadcastTo S2000x3 (rsqrt (shapeCast S2000x1 (multiReduction .add [1] S2000 (mulf x2 x2) 0x00000000#32 reduces_S2000x3_S2000 (.inl rfl) rfl) shapeCasts_S2000_S2000x1)) broadcasts_S2000x1_S2000x3) (ix2 q c) = _
  rw [broadcastTo_apply _ broadcasts_S2000x1_S2000x3 (ix2 q c) (ix2 q 0) (fun a => match a with
    | ⟨0, _⟩ => by show q.val = if (2000 : Nat) = 1 then 0 else q.val; rw [if_neg (by decide)]
    | ⟨1, _⟩ => by show 0 = if (1 : Nat) = 1 then 0 else c.val; rw [if_pos rfl])]
  show x2 (ix2 q c) * Ideal.rsqrt ((shapeCast S2000x1 (multiReduction .add [1] S2000 (mulf x2 x2) 0x00000000#32 reduces_S2000x3_S2000 (.inl rfl) rfl) shapeCasts_S2000_S2000x1) (ix2 q 0)) = _
  rw [shapeCast_apply _ shapeCasts_S2000_S2000x1 (ix2 q 0) (ix1 q) (by
    rw [Shape.rowMajor_val_one, Shape.rowMajor_val_two]; show q.val = q.val * 1 + 0; omega), rowsum_apply]

/-! ## The matrix product: which operand entries an output entry contracts -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product of the weighted embeddings with the transposed weights, into a zero accumulator: entry (q, g)
    is the sum over the feature axis. -/
theorem pay3_apply (x1 : FVec Ideal S2000x1 .f32) (x0 : FVec Ideal S2000x128 .f32) (x3 : FVec Ideal S128x128 .f32)
    (q : Fin 2000) (g : Fin 128) :
    k0_pay3 (F := Ideal) x1 x0 x3 (ix2 q g) = ∑ f : Fin 128, wAt x0 x1 q f * x3 (ix2 f g) := by
  unfold k0_pay3
  refine (Ideal.matmul_constant_zero_apply dot_S2000x128_S128x128_S2000x128_1_0_0_1_n_n none _ _ (ix2 q g)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 q g) ((ValueIdx.contrEquiv1 dot_S2000x128_S128x128_S2000x128_1_0_0_1_n_n 128 rfl rfl).symm k) = ix2 q k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 q g) ((ValueIdx.contrEquiv1 dot_S2000x128_S128x128_S2000x128_1_0_0_1_n_n 128 rfl rfl).symm k) = ix2 k g := funext fun a => Fin.ext (by
    match a with
    | ⟨0, _⟩ => exact (rhs_mm_0 _ _).trans hk
    | ⟨1, _⟩ => exact rhs_mm_1 _ _)
  rw [el, er]
  show k0_pay2 (F := Ideal) x1 x0 (ix2 q k) * (shapeCast S128x128 x3 shapeCasts_S128x128_S128x128) (ix2 k g) = _
  rw [pay2_apply, shapeCast_self]

/-! ## One direction's store: a column of the unit vectors times the product, plus the bias row -/

theorem chan_apply (u : FVec Ideal S2000x3 .f32) (lin : FVec Ideal S2000x128 .f32) (bv : FVec Ideal S128 .f32)
    (off : Fin S2000x3.rank → Nat) (hs : S2000x3.Slices off S2000x1) (c : Fin 3) (h0 : off 0 = 0) (h1 : off 1 = c.val)
    (q : Fin 2000) (g : Fin 128) :
    shapeCast S2000x1x128 (addf (mulf (broadcastTo S2000x128 (extractStridedSlice S2000x1 off u hs) broadcasts_S2000x1_S2000x128) lin)
        (broadcastTo S2000x128 (shapeCast S1x128 bv shapeCasts_S128_S1x128) broadcasts_S1x128_S2000x128))
      shapeCasts_S2000x128_S2000x1x128 (ix3 q 0 g)
      = u (ix2 q c) * lin (ix2 q g) + bv (ix1 g) := by
  rw [shapeCast_apply _ shapeCasts_S2000x128_S2000x1x128 (ix3 q 0 g) (ix2 q g) (by
    rw [Shape.rowMajor_val_two, Shape.rowMajor_val_three]; show q.val * 128 + g.val = (q.val * 1 + 0) * 128 + g.val; omega)]
  show (broadcastTo S2000x128 (extractStridedSlice S2000x1 off u hs) broadcasts_S2000x1_S2000x128) (ix2 q g) * lin (ix2 q g)
    + (broadcastTo S2000x128 (shapeCast S1x128 bv shapeCasts_S128_S1x128) broadcasts_S1x128_S2000x128) (ix2 q g) = _
  rw [broadcastTo_apply _ broadcasts_S2000x1_S2000x128 (ix2 q g) (ix2 q 0) (fun a => match a with
      | ⟨0, _⟩ => by show q.val = if (2000 : Nat) = 1 then 0 else q.val; rw [if_neg (by decide)]
      | ⟨1, _⟩ => by show 0 = if (1 : Nat) = 1 then 0 else g.val; rw [if_pos rfl]),
    extractStridedSlice_apply off u hs (ix2 q 0) (ix2 q c) (fun a => match a with
      | ⟨0, _⟩ => by show q.val = off 0 + q.val; rw [h0]; omega
      | ⟨1, _⟩ => by show c.val = off 1 + 0; rw [h1]; omega),
    broadcastTo_apply _ broadcasts_S1x128_S2000x128 (ix2 q g) (ix2 0 g) (fun a => match a with
      | ⟨0, _⟩ => by show 0 = if (1 : Nat) = 1 then 0 else q.val; rw [if_pos rfl]
      | ⟨1, _⟩ => by show g.val = if (128 : Nat) = 1 then 0 else g.val; rw [if_neg (by decide)]),
    shapeCast_apply bv shapeCasts_S128_S1x128 (ix2 0 g) (ix1 g) (by
      rw [Shape.rowMajor_val_one, Shape.rowMajor_val_two]; show g.val = 0 * 128 + g.val; omega)]

/-- Direction 0's store. -/
theorem pay5_apply (x1 : FVec Ideal S2000x1 .f32) (x0 : FVec Ideal S2000x128 .f32) (x3 : FVec Ideal S128x128 .f32)
    (x2 : FVec Ideal S2000x3 .f32) (x4 : FVec Ideal S128 .f32) (q : Fin 2000) (g : Fin 128) :
    k0_pay5 (F := Ideal) x1 x0 x3 x2 x4 (ix3 q 0 g) = mAt x0 x1 x2 x3 x4 q 0 g := by
  unfold k0_pay5 mAt
  rw [chan_apply _ _ _ _ _ 0 rfl rfl q g, pay4_apply, pay3_apply]

/-- Direction 1's store. -/
theorem pay6_apply (x1 : FVec Ideal S2000x1 .f32) (x0 : FVec Ideal S2000x128 .f32) (x3 : FVec Ideal S128x128 .f32)
    (x2 : FVec Ideal S2000x3 .f32) (x4 : FVec Ideal S128 .f32) (q : Fin 2000) (g : Fin 128) :
    k0_pay6 (F := Ideal) x1 x0 x3 x2 x4 (ix3 q 0 g) = mAt x0 x1 x2 x3 x4 q 1 g := by
  unfold k0_pay6 mAt
  rw [chan_apply _ _ _ _ _ 1 rfl rfl q g, pay4_apply, pay3_apply]

/-- Direction 2's store. -/
theorem pay1_apply (x1 : FVec Ideal S2000x1 .f32) (x0 : FVec Ideal S2000x128 .f32) (x3 : FVec Ideal S128x128 .f32)
    (x2 : FVec Ideal S2000x3 .f32) (x4 : FVec Ideal S128 .f32) (q : Fin 2000) (g : Fin 128) :
    k0_pay1 (F := Ideal) (k0_pay3 x1 x0 x3) (k0_pay4 x2) x4 (ix3 q 0 g) = mAt x0 x1 x2 x3 x4 q 2 g := by
  unfold k0_pay1 mAt
  rw [chan_apply _ _ _ _ _ 2 rfl rfl q g, pay4_apply, pay3_apply]

/-! ## The two blocks -/

theorem hz2 : (![0, 0] : Fin 2 → Nat) = fun _ => 0 := funext fun a => by fin_cases a <;> rfl
theorem hz1 : (![0] : Fin 1 → Nat) = fun _ => 0 := funext fun a => by fin_cases a <;> rfl

/-- The first output block after the body is the weighted-embedding block. -/
theorem out0_5_eq (x0 : Vec Ideal S2000x128 .f32) (x1 : Vec Ideal S2000x1 .f32) (x2 : Vec Ideal S2000x3 .f32)
    (x3 : Vec Ideal S128x128 .f32) (x4 : Vec Ideal S128 .f32) : out0_5 (F := Ideal) x0 x1 x2 x3 x4 = blkW x0 x1 := by
  unfold out0_5
  rw [View.canon_unit_zero hz2]
  simp only [View.ld_unit_zero (S := S2000x128) hz2, View.ld_unit_zero (S := S2000x1) hz2]
  funext y
  obtain ⟨q, f, rfl⟩ : ∃ (q : Fin 2000) (f : Fin 128), y = ix2 q f := ⟨y 0, y 1, eq_ix2 y⟩
  exact pay2_apply x1 x0 q f

/-- The second output block after the body is the message block: its three slabs, one per direction, each the same
    function of the block index. -/
theorem out0_6_eq (x0 : Vec Ideal S2000x128 .f32) (x1 : Vec Ideal S2000x1 .f32) (x2 : Vec Ideal S2000x3 .f32)
    (x3 : Vec Ideal S128x128 .f32) (x4 : Vec Ideal S128 .f32) : out0_6 (F := Ideal) x0 x1 x2 x3 x4 = blkM x0 x1 x2 x3 x4 := by
  unfold out0_6
  simp only [View.ld_unit_zero (S := S2000x128) hz2, View.ld_unit_zero (S := S2000x1) hz2, View.ld_unit_zero (S := S2000x3) hz2,
    View.ld_unit_zero (S := S128x128) hz2, View.ld_unit_zero (S := S128) hz1]
  funext y
  refine View.canon_apply_of_pieces (Val := Elt Ideal) (blkM x0 x1 x2 x3 x4 : S2000x3x128.Idx → Elt Ideal .f32) _ ?_ y (cover0_6 _ _ _ y)
  intro p hp
  simp only [List.mem_cons, List.mem_nil_iff, or_false] at hp
  rcases hp with rfl | rfl | rfl
  · intro x
    obtain ⟨q, z, g, rfl⟩ : ∃ (q : Fin 2000) (z : Fin 1) (g : Fin 128), x = ix3 q z g := ⟨x 0, x 1, x 2, eq_ix3 x⟩
    obtain rfl : z = 0 := Subsingleton.elim _ _
    refine (pay1_apply x1 x0 x3 x2 x4 q g).trans ?_
    show mAt x0 x1 x2 x3 x4 q 2 g = mAt x0 x1 x2 x3 x4 (r0_7.emb (ix3 q 0 g) 0) (r0_7.emb (ix3 q 0 g) 1) (r0_7.emb (ix3 q 0 g) 2)
    congr 1 <;> (apply Fin.ext; simp [Rect.emb_apply])
  · intro x
    obtain ⟨q, z, g, rfl⟩ : ∃ (q : Fin 2000) (z : Fin 1) (g : Fin 128), x = ix3 q z g := ⟨x 0, x 1, x 2, eq_ix3 x⟩
    obtain rfl : z = 0 := Subsingleton.elim _ _
    refine (pay6_apply x1 x0 x3 x2 x4 q g).trans ?_
    show mAt x0 x1 x2 x3 x4 q 1 g = mAt x0 x1 x2 x3 x4 (r0_6.emb (ix3 q 0 g) 0) (r0_6.emb (ix3 q 0 g) 1) (r0_6.emb (ix3 q 0 g) 2)
    congr 1 <;> (apply Fin.ext; simp [Rect.emb_apply])
  · intro x
    obtain ⟨q, z, g, rfl⟩ : ∃ (q : Fin 2000) (z : Fin 1) (g : Fin 128), x = ix3 q z g := ⟨x 0, x 1, x 2, eq_ix3 x⟩
    obtain rfl : z = 0 := Subsingleton.elim _ _
    refine (pay5_apply x1 x0 x3 x2 x4 q g).trans ?_
    show mAt x0 x1 x2 x3 x4 q 0 g = mAt x0 x1 x2 x3 x4 (r0_5.emb (ix3 q 0 g) 0) (r0_5.emb (ix3 q 0 g) 1) (r0_5.emb (ix3 q 0 g) 2)
    congr 1 <;> (apply Fin.ext; simp [Rect.emb_apply])

end Cert.KernelIdeal.Blk

end
-- ==== Proof.PairMsg.lean ====
/-
  The common specification of the two programs, over the extended reals.

  For a pair p with displacement r_p = (r(p,0), r(p,1), r(p,2)), cutoff weight fc(p) and gathered neighbour
  embedding aj(p, ·), both programs form the weighted embedding  w(p,f) = fc(p) · aj(p,f)  and, for each spatial
  direction c and output feature g, the message

      kernel:     (r(p,c) · rsqrt |r_p|²) · (Σ_f w(p,f) · Wᵀ(f,g)) + b(g)
      reference:   Σ_f ((r(p,c) / sqrt |r_p|²) · w(p,f)) · W(g,f)  + b(g)

  with |r_p|² = Σ_k r(p,k)². On finite inputs with |r_p|² > 0 the unit vector's two spellings agree
  (x · (√s)⁻¹ = x / √s for a real s > 0) and a real scalar moves across the finite sum, so the two messages are
  one extended real. Outside |r_p|² > 0 they are not: at r_p = 0 the kernel's factor is 0 · ⊤ = 0 and the
  reference's quotient 0 / 0 is ⊥.
-/
import Idealize.ShloMosaic.PureOps.Ideal
import Idealize.ShloMosaic.PureOps.Ideal.Laws
import Idealize.ShloMosaic.Lib.ValueIdx

noncomputable section

namespace Cert.PairMsg

open Idealize.ShloMosaic Idealize.ShloMosaic.ValueIdx

/-! ## Shapes, spelt literally -/

abbrev SPF : Shape := ⟨2, ![320000, 128]⟩
abbrev SP1 : Shape := ⟨2, ![320000, 1]⟩
abbrev SP3 : Shape := ⟨2, ![320000, 3]⟩
abbrev SFF : Shape := ⟨2, ![128, 128]⟩
abbrev SF : Shape := ⟨1, ![128]⟩
abbrev SP3F : Shape := ⟨3, ![320000, 3, 128]⟩

/-! ## The specification -/

/-- The cutoff-weighted neighbour embedding of pair p at feature f. -/
def weightedAt (fc : SP1.Idx → EReal) (aj : SPF.Idx → EReal) (p : Fin 320000) (f : Fin 128) : EReal :=
  fc (ix2 p 0) * aj (ix2 p f)

/-- The squared length of pair p's displacement. -/
def len2 (r : SP3.Idx → EReal) (p : Fin 320000) : EReal := ∑ k : Fin 3, r (ix2 p k) * r (ix2 p k)

/-- The message of pair p in direction c at output feature g as the kernel forms it: the unit vector by the
    reciprocal square root, one matrix product per pair shared by the three directions, against the transposed
    weights wt. -/
def msgK (fc : SP1.Idx → EReal) (aj : SPF.Idx → EReal) (r : SP3.Idx → EReal) (wt : SFF.Idx → EReal) (b : SF.Idx → EReal)
    (p : Fin 320000) (c : Fin 3) (g : Fin 128) : EReal :=
  (r (ix2 p c) * Ideal.rsqrt (len2 r p)) * (∑ f : Fin 128, weightedAt fc aj p f * wt (ix2 f g)) + b (ix1 g)

/-- The same message as the reference forms it: the unit vector by a quotient, the outer product first, then the
    linear layer against the weights w. -/
def msgR (fc : SP1.Idx → EReal) (aj : SPF.Idx → EReal) (r : SP3.Idx → EReal) (w : SFF.Idx → EReal) (b : SF.Idx → EReal)
    (p : Fin 320000) (c : Fin 3) (g : Fin 128) : EReal :=
  (∑ f : Fin 128, (Ideal.div (r (ix2 p c)) (Ideal.sqrt (len2 r p)) * weightedAt fc aj p f) * w (ix2 g f)) + b (ix1 g)

/-! ## The algebra -/

/-- The coercion of the reals into the extended reals commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- For a real s > 0 the two spellings of "divide by the length" agree on every real x:
    x · rsqrt s = x / sqrt s, both being x · (√s)⁻¹. -/
theorem unit_eq (x s : ℝ) (hs : 0 < s) :
    (x : EReal) * Ideal.rsqrt (s : EReal) = Ideal.div (x : EReal) (Ideal.sqrt (s : EReal)) := by
  have hq : Real.sqrt s ≠ 0 := (Real.sqrt_pos.2 hs).ne'
  rw [Ideal.rsqrt_coe, if_neg (not_lt.2 hs.le), if_neg hs.ne', Ideal.sqrt_coe, if_neg (not_lt.2 hs.le),
    Ideal.div_coe hq, one_div]

/-- A real scalar moves across a finite sum of real products. -/
theorem scale_sum (u : ℝ) (a w : Fin 128 → ℝ) :
    (u : EReal) * ∑ f : Fin 128, (a f : EReal) * (w f : EReal) = ∑ f : Fin 128, ((u : EReal) * (a f : EReal)) * (w f : EReal) := by
  have h1 : ∀ f : Fin 128, (a f : EReal) * (w f : EReal) = ((a f * w f : ℝ) : EReal) := fun f => (EReal.coe_mul _ _).symm
  have h2 : ∀ f : Fin 128, ((u : EReal) * (a f : EReal)) * (w f : EReal) = ((u * a f * w f : ℝ) : EReal) := fun f => by
    rw [EReal.coe_mul, EReal.coe_mul]
  rw [Finset.sum_congr rfl (fun f _ => h1 f), Finset.sum_congr rfl (fun f _ => h2 f), ← coe_sum, ← coe_sum, ← EReal.coe_mul,
    Finset.mul_sum]
  exact congrArg _ (Finset.sum_congr rfl fun f _ => (mul_assoc _ _ _).symm)

/-- THE TWO MESSAGES AGREE on finite inputs wherever the displacement is not the zero vector; wt is the
    transpose of w. -/
theorem msgK_eq_msgR (fc : SP1.Idx → EReal) (aj : SPF.Idx → EReal) (r : SP3.Idx → EReal) (w wt : SFF.Idx → EReal)
    (b : SF.Idx → EReal)
    (hwt : ∀ (f g : Fin 128), wt (ix2 f g) = w (ix2 g f))
    (hfc : ∀ i, ∃ x : ℝ, fc i = (x : EReal)) (haj : ∀ i, ∃ x : ℝ, aj i = (x : EReal))
    (hr : ∀ i, ∃ x : ℝ, r i = (x : EReal)) (hw : ∀ i, ∃ x : ℝ, w i = (x : EReal))
    (p : Fin 320000) (hpos : 0 < len2 r p) (c : Fin 3) (g : Fin 128) :
    msgK fc aj r wt b p c g = msgR fc aj r w b p c g := by
  choose fc' hfc' using hfc
  choose aj' haj' using haj
  choose r' hr' using hr
  choose w' hw' using hw
  have hlen : len2 r p = ((∑ k : Fin 3, r' (ix2 p k) * r' (ix2 p k) : ℝ) : EReal) := by
    unfold len2
    rw [coe_sum]
    exact Finset.sum_congr rfl fun k _ => by rw [hr', EReal.coe_mul]
  have hs : 0 < ∑ k : Fin 3, r' (ix2 p k) * r' (ix2 p k) := by
    rw [hlen] at hpos; exact_mod_cast hpos
  unfold msgK msgR
  refine congrArg (· + b (ix1 g)) ?_
  have hwa : ∀ f : Fin 128, weightedAt fc aj p f = ((fc' (ix2 p 0) * aj' (ix2 p f) : ℝ) : EReal) := fun f => by
    unfold weightedAt; rw [hfc', haj', EReal.coe_mul]
  rw [hlen, hr' (ix2 p c), ← unit_eq _ _ hs, Ideal.rsqrt_coe, if_neg (not_lt.2 hs.le), if_neg hs.ne', ← EReal.coe_mul]
  have hL : (∑ f : Fin 128, weightedAt fc aj p f * wt (ix2 f g))
      = ∑ f : Fin 128, ((fc' (ix2 p 0) * aj' (ix2 p f) : ℝ) : EReal) * ((w' (ix2 g f) : ℝ) : EReal) :=
    Finset.sum_congr rfl fun f _ => by rw [hwa f, hwt f g, hw' (ix2 g f)]
  have hR : ∀ u : EReal, (∑ f : Fin 128, (u * weightedAt fc aj p f) * w (ix2 g f))
      = ∑ f : Fin 128, (u * ((fc' (ix2 p 0) * aj' (ix2 p f) : ℝ) : EReal)) * ((w' (ix2 g f) : ℝ) : EReal) :=
    fun u => Finset.sum_congr rfl fun f _ => by rw [hwa f, hw' (ix2 g f)]
  rw [hL, hR]
  exact scale_sum _ _ _

/-! ## The same as whole arrays -/

/-- The weighted embeddings as one array over pairs × features. -/
def weightedArr (fc : SP1.Idx → EReal) (aj : SPF.Idx → EReal) : SPF.Idx → EReal :=
  fun i => weightedAt fc aj (i 0) (i 1)

/-- The kernel's messages as one array over pairs × directions × features. -/
def msgKArr (fc : SP1.Idx → EReal) (aj : SPF.Idx → EReal) (r : SP3.Idx → EReal) (wt : SFF.Idx → EReal) (b : SF.Idx → EReal) :
    SP3F.Idx → EReal := fun i => msgK fc aj r wt b (i 0) (i 1) (i 2)

/-- The reference's messages as one array. -/
def msgRArr (fc : SP1.Idx → EReal) (aj : SPF.Idx → EReal) (r : SP3.Idx → EReal) (w : SFF.Idx → EReal) (b : SF.Idx → EReal) :
    SP3F.Idx → EReal := fun i => msgR fc aj r w b (i 0) (i 1) (i 2)

/-- On finite inputs with no zero displacement the two message arrays are one array. -/
theorem msgKArr_eq_msgRArr (fc : SP1.Idx → EReal) (aj : SPF.Idx → EReal) (r : SP3.Idx → EReal) (w wt : SFF.Idx → EReal)
    (b : SF.Idx → EReal)
    (hwt : ∀ (f g : Fin 128), wt (ix2 f g) = w (ix2 g f))
    (hfc : ∀ i, ∃ x : ℝ, fc i = (x : EReal)) (haj : ∀ i, ∃ x : ℝ, aj i = (x : EReal))
    (hr : ∀ i, ∃ x : ℝ, r i = (x : EReal)) (hw : ∀ i, ∃ x : ℝ, w i = (x : EReal))
    (hpos : ∀ p : Fin 320000, 0 < len2 r p) :
    msgKArr fc aj r wt b = msgRArr fc aj r w b :=
  funext fun i => msgK_eq_msgR fc aj r w wt b hwt hfc haj hr hw (i 0) (hpos _) (i 1) (i 2)

end Cert.PairMsg

end
-- ==== Proof.KSpec.lean ====
/-
  A block of the kernel's outputs is the matching block of the whole-array specification.

  Stated over variables only: if the block inputs x0 … x4 are the whole arrays aj, fc, r, wt, b read at the rows the
  block holds (row q of the block is pair P of the array), then the weighted-embedding block and the message block, at
  a block index, are the whole-array weighted embeddings and messages at the corresponding array index.
-/
import proofs.«127203_j77223511982115_1_alg».proof.Proof.KBlock
import proofs.«127203_j77223511982115_1_alg».proof.Proof.PairMsg

noncomputable section

namespace Cert.KernelIdeal.Blk

open Cert.KernelIdeal Idealize.ShloMosaic Idealize.ShloMosaic.ValueIdx
open Cert.PairMsg (weightedArr weightedAt msgKArr msgK len2)

/-- The weighted-embedding block at row q, feature f is the array of weighted embeddings at pair P, feature f, when
    the two inputs agree there. -/
theorem blkW_spec (x0 : FVec Ideal S2000x128 .f32) (x1 : FVec Ideal S2000x1 .f32)
    (fc : Cert.PairMsg.SP1.Idx → EReal) (aj : Cert.PairMsg.SPF.Idx → EReal)
    (q : Fin 2000) (f : Fin 128) (P : Fin 320000)
    (h0 : x0 (ix2 q f) = aj (ix2 P f)) (h1 : x1 (ix2 q 0) = fc (ix2 P 0)) :
    blkW x0 x1 (ix2 q f) = weightedArr fc aj (ix2 P f) := by
  show wAt x0 x1 q f = weightedAt fc aj P f
  unfold wAt weightedAt
  rw [h0, h1]

/-- The message block at row q is the array of messages at pair P, when every input the message reads agrees: the
    pair's row of embeddings, its cutoff, its displacement, and the (point-independent) weights and bias. -/
theorem blkM_spec (x0 : FVec Ideal S2000x128 .f32) (x1 : FVec Ideal S2000x1 .f32) (x2 : FVec Ideal S2000x3 .f32)
    (x3 : FVec Ideal S128x128 .f32) (x4 : FVec Ideal S128 .f32)
    (fc : Cert.PairMsg.SP1.Idx → EReal) (aj : Cert.PairMsg.SPF.Idx → EReal) (r : Cert.PairMsg.SP3.Idx → EReal)
    (wt : Cert.PairMsg.SFF.Idx → EReal) (b : Cert.PairMsg.SF.Idx → EReal)
    (q : Fin 2000) (c : Fin 3) (g : Fin 128) (P : Fin 320000)
    (h0 : ∀ f : Fin 128, x0 (ix2 q f) = aj (ix2 P f)) (h1 : x1 (ix2 q 0) = fc (ix2 P 0))
    (h2 : ∀ k : Fin 3, x2 (ix2 q k) = r (ix2 P k)) (h3 : ∀ (f g : Fin 128), x3 (ix2 f g) = wt (ix2 f g))
    (h4 : ∀ g : Fin 128, x4 (ix1 g) = b (ix1 g)) :
    blkM x0 x1 x2 x3 x4 (ix3 q c g) = msgKArr fc aj r wt b (ix3 P c g) := by
  show mAt x0 x1 x2 x3 x4 q c g = msgK fc aj r wt b P c g
  unfold mAt wAt msgK weightedAt len2
  simp only [h0, h1, h2, h3, h4]

end Cert.KernelIdeal.Blk

end
-- ==== Proof.Glue.lean ====
/-
  The host-side arithmetic the two programs share, named once.

  Before the pairwise work both programs take the two rows of the pair list (receiving atom, sending atom), wrap a
  negative sending index by the number of atoms and gather the sending atoms' embeddings (a gather reads an entry of
  the table at a clamped row, so on a finite table every gathered entry is finite). After it both programs
  scatter-add the weighted embeddings and the messages onto the receiving atoms, take the Euclidean norm of the three
  summed message components (with the same small constant under the root) and join the two results along the feature
  axis. That tail is one function of the receiving indices, the weighted embeddings and the messages; nothing in the
  proof opens it.
-/
import proofs.«127203_j77223511982115_1_alg».proof.KernelIdeal
import proofs.«127203_j77223511982115_1_alg».proof.Proof.Gen.KernelIdeal
import Idealize.ShloMosaic.PureOps.Ideal
import Idealize.ShloMosaic.Lib.Pipeline.Value
import Idealize.ShloMosaic.Lib.ValueIdx

noncomputable section

namespace Cert.KernelIdeal.Glue

open Cert.KernelIdeal Idealize.ShloMosaic Idealize.ShloMosaic.ValueIdx
open Cert.KernelIdeal.Facts₀ Cert.KernelIdeal.Facts

/-- The receiving atom of each pair: row 0 of the pair list. -/
def recvIdx (pl : IVec S2x320000 32) : IVec S320000 32 :=
  shapeCast S320000 (extractStridedSlice S1x320000 ![0, 0] pl slices_S2x320000_S1x320000_0_0) shapeCasts_S1x320000_S320000

/-- The sending atom of each pair: row 1 of the pair list. -/
def sendIdx (pl : IVec S2x320000 32) : IVec S320000 32 :=
  shapeCast S320000 (extractStridedSlice S1x320000 ![1, 0] pl slices_S2x320000_S1x320000_1_0) shapeCasts_S1x320000_S320000

/-- The sending atoms' embeddings: a negative index is wrapped by the number of atoms, and the gather reads the table
    at the clamped row. -/
def gathered (emb : FVec Ideal S20000x128 .f32) (pl : IVec S2x320000 32) : FVec Ideal S320000x128 .f32 :=
  Host.gather gather_S20000x128_S320000x1_S320000x128_1_0_n_n_0_1_1128 emb
    (broadcastInDim S320000x1 ![0] bcast_S320000_S320000x1_0
      (select (cmpi .slt (sendIdx pl) (broadcastInDim S320000 ![] bcast_S_S320000 (constantI S_ 32 0#32)))
        (addi (sendIdx pl) (broadcastInDim S320000 ![] bcast_S_S320000 (constantI S_ 32 20000#32)))
        (sendIdx pl)))

/-- Every gathered entry is an entry of the table: finite when the table is. -/
theorem gathered_finite (emb : FVec Ideal S20000x128 .f32) (pl : IVec S2x320000 32)
    (h : ∀ i, ∃ x : ℝ, emb i = (x : EReal)) : ∀ i, ∃ x : ℝ, gathered emb pl i = (x : EReal) :=
  fun _ => h _

/-- The weight matrix transposed. -/
def transposed (w : FVec Ideal S128x128 .f32) : FVec Ideal S128x128 .f32 :=
  transpose S128x128 [1, 0] w transposes_S128x128_S128x128_1_0

theorem transposed_apply (w : FVec Ideal S128x128 .f32) (f g : Fin 128) : transposed w (ix2 f g) = w (ix2 g f) :=
  transpose_apply [1, 0] w transposes_S128x128_S128x128_1_0 (ix2 f g) (ix2 g f)
    (fun b => match b with | ⟨0, _⟩ => rfl | ⟨1, _⟩ => rfl)

/-- What both programs do after the pairwise work: scatter-add both arrays onto the receiving atoms, the norm over
    the three directions of the summed messages, and the join with the summed weighted embeddings. -/
def tail (idx : IVec S320000 32) (wgt : FVec Ideal S320000x128 .f32) (msg : FVec Ideal S320000x3x128 .f32) :
    FVec Ideal S20000x256 .f32 :=
  concatenate S20000x256 1
    [⟨S20000x128, Host.sqrt (F := Ideal) (addf (Host.reduceAdd (F := Ideal)
        (mulf
          (Host.scatterAdd (F := Ideal) scatter_S20000x3x128_S320000x1_S320000x3x128_12_0_0_1
            (broadcastInDim S20000x3x128 ![] bcast_S_S20000x3x128 (constant (F := Ideal) S_ .f32 0x00000000#32))
            (broadcastInDim S320000x1 ![0] bcast_S320000_S320000x1_0 idx) msg)
          (Host.scatterAdd (F := Ideal) scatter_S20000x3x128_S320000x1_S320000x3x128_12_0_0_1
            (broadcastInDim S20000x3x128 ![] bcast_S_S20000x3x128 (constant (F := Ideal) S_ .f32 0x00000000#32))
            (broadcastInDim S320000x1 ![0] bcast_S320000_S320000x1_0 idx) msg))
        (constant (F := Ideal) S_ .f32 0x00000000#32) reducesTo_S20000x3x128_S20000x128_d1 h_S_)
        (broadcastInDim S20000x128 ![] bcast_S_S20000x128 (constant (F := Ideal) S_ .f32 0x2B8CBCCC#32)))⟩,
     ⟨S20000x128, Host.scatterAdd (F := Ideal) scatter_S20000x128_S320000x1_S320000x128_1_0_0_1
        (broadcastInDim S20000x128 ![] bcast_S_S20000x128 (constant (F := Ideal) S_ .f32 0x00000000#32))
        (broadcastInDim S320000x1 ![0] bcast_S320000_S320000x1_0 idx) wgt⟩]
    concatenates_S20000x128_S20000x128_S20000x256_d1

end Cert.KernelIdeal.Glue

end
-- ==== Proof.KArrays.lean ====
/-
  The kernel program's run, read as values.

  The grid has 160 points; point t holds pairs 2000·t … 2000·t + 1999 of every pair-indexed array (the index maps,
  decided once over the grid), the whole weight matrix and the whole bias. So what point t writes back is block t of
  the whole-array weighted embeddings and of the whole-array messages; the 160 blocks tile both output arrays; and
  the program's result is the common tail of those two arrays.
-/
import proofs.«127203_j77223511982115_1_alg».proof.Proof.Gen.KernelIdeal.Frame
import proofs.«127203_j77223511982115_1_alg».proof.Proof.KSpec
import proofs.«127203_j77223511982115_1_alg».proof.Proof.Glue
import Idealize.ShloMosaic.Lib.Pipeline.Value
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.PairMsg (weightedArr msgKArr)

variable (m : (ℓ : Loc nD τ sig) → Buf (Elt Ideal) ℓ) (ρ : Dev nD → PrngReg)

/-! ## The arrays the region finds -/

/-- The gathered embeddings, as the region finds them. -/
theorem V_v10 (c : Dev nD) :
    (V m c main_v10 : S320000x128.Idx → EReal)
      = Glue.gathered (m ((c : Thread nD τ).loc main_arg0)) (m ((c : Thread nD τ).loc main_arg1)) := by
  dsimp only [V, V0]
  simp only [hostOps0, List.flatten_cons, List.flatten_nil, List.append_nil, List.cons_append, List.nil_append]
  after_results
  rfl

/-- The transposed weights, as the region finds them. -/
theorem V_v11 (c : Dev nD) :
    (V m c main_v11 : S128x128.Idx → EReal) = Glue.transposed (m ((c : Thread nD τ).loc main_arg4)) := by
  dsimp only [V, V0]
  simp only [hostOps0, List.flatten_cons, List.flatten_nil, List.append_nil, List.cons_append, List.nil_append]
  after_results
  rfl

/-- The receiving indices, computed before the region and read by the tail. -/
theorem V0_v1 (c : Dev nD) :
    (V0 m c (Proc.devRef .tc main_v1) : S320000.Idx → BitVec 32) = Glue.recvIdx (m ((c : Thread nD τ).loc main_arg1)) := by
  dsimp only [V0]
  simp only [hostOps0, List.flatten_cons, List.flatten_nil, List.append_nil, List.cons_append, List.nil_append]
  after_results
  rfl

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## What a point writes back -/

/-- Row q of point t's blocks is pair 2000·t + q of the arrays. -/
theorem row_lt (t : Fin cfg0.N) (q : Fin 2000) : t.val * 2000 + q.val < 320000 := by
  have ht : t.val < grid0.N := t.isLt
  have hN : grid0.N = 160 := N_0
  have hq := q.isLt
  omega

/-- Point t writes back block t of the whole-array weighted embeddings. -/
theorem flushed5_eq (c : Dev nD) (t : Fin cfg0.N) :
    (dats m 0 c).flushed 5 t = ((cfg0.win 5).blk t).view.read (Elt Ideal)
      (weightedArr (V m c main_arg2) (V m c main_v10)) := by
  show (cfg0.win 5).cut (grid0.coords t) ((dats m 0 c).after 5 t) = _
  rw [after0_5, Blk.out0_5_eq]
  obtain ⟨e00, e01, e10, e11, -, -, -, -, -, e50, e51, -⟩ := idx_facts t
  funext j
  obtain ⟨q, f, rfl⟩ : ∃ (q : Fin 2000) (f : Fin 128), j = ix2 q f := ⟨j 0, j 1, eq_ix2 j⟩
  have eemb : ((cfg0.win 5).blk t).view.emb (ix2 q f) = (ix2 ⟨t.val * 2000 + q.val, row_lt t q⟩ f : S320000x128.Idx) :=
    funext fun a => Fin.ext (by
      match a with
      | ⟨0, _⟩ => show win0_5.index t (0 : Fin 2) * 2000 + 1 * q.val = t.val * 2000 + q.val; rw [e50]; omega
      | ⟨1, _⟩ => show win0_5.index t (1 : Fin 2) * 128 + 1 * f.val = f.val; rw [e51]; omega)
  show Blk.blkW (iblk m c 0 t) (iblk m c 1 t) (ix2 q f)
    = weightedArr (V m c main_arg2) (V m c main_v10) (((cfg0.win 5).blk t).view.emb (ix2 q f))
  refine (Blk.blkW_spec _ _ (V m c main_arg2) (V m c main_v10) q f ⟨t.val * 2000 + q.val, row_lt t q⟩ ?_ ?_).trans
    (congrArg (weightedArr (V m c main_arg2) (V m c main_v10)) eemb.symm)
  · show V m c main_v10 (((cfg0.win 0).blk t).view.emb (ix2 q f)) = V m c main_v10 (ix2 ⟨t.val * 2000 + q.val, row_lt t q⟩ f)
    refine congrArg (V m c main_v10) (funext fun a => Fin.ext ?_)
    match a with
    | ⟨0, _⟩ => show win0_0.index t (0 : Fin 2) * 2000 + 1 * q.val = t.val * 2000 + q.val; rw [e00]; omega
    | ⟨1, _⟩ => show win0_0.index t (1 : Fin 2) * 128 + 1 * f.val = f.val; rw [e01]; omega
  · show V m c main_arg2 (((cfg0.win 1).blk t).view.emb (ix2 q 0)) = V m c main_arg2 (ix2 ⟨t.val * 2000 + q.val, row_lt t q⟩ 0)
    refine congrArg (V m c main_arg2) (funext fun a => Fin.ext ?_)
    match a with
    | ⟨0, _⟩ => show win0_1.index t (0 : Fin 2) * 2000 + 1 * q.val = t.val * 2000 + q.val; rw [e10]; omega
    | ⟨1, _⟩ => show win0_1.index t (1 : Fin 2) * 1 + 1 * 0 = 0; rw [e11]

/-- Point t writes back block t of the whole-array messages. -/
theorem flushed6_eq (c : Dev nD) (t : Fin cfg0.N) :
    (dats m 0 c).flushed 6 t = ((cfg0.win 6).blk t).view.read (Elt Ideal)
      (msgKArr (V m c main_arg2) (V m c main_v10) (V m c main_arg3) (V m c main_v11) (V m c main_arg5)) := by
  show (cfg0.win 6).cut (grid0.coords t) ((dats m 0 c).after 6 t) = _
  rw [after0_6, Blk.out0_6_eq]
  obtain ⟨e00, e01, e10, e11, e20, e21, e30, e31, e40, -, -, e60, e61, e62⟩ := idx_facts t
  funext j
  obtain ⟨q, cc, g, rfl⟩ : ∃ (q : Fin 2000) (cc : Fin 3) (g : Fin 128), j = ix3 q cc g := ⟨j 0, j 1, j 2, eq_ix3 j⟩
  have eemb : ((cfg0.win 6).blk t).view.emb (ix3 q cc g) = (ix3 ⟨t.val * 2000 + q.val, row_lt t q⟩ cc g : S320000x3x128.Idx) :=
    funext fun a => Fin.ext (by
      match a with
      | ⟨0, _⟩ => show win0_6.index t (0 : Fin 3) * 2000 + 1 * q.val = t.val * 2000 + q.val; rw [e60]; omega
      | ⟨1, _⟩ => show win0_6.index t (1 : Fin 3) * 3 + 1 * cc.val = cc.val; rw [e61]; omega
      | ⟨2, _⟩ => show win0_6.index t (2 : Fin 3) * 128 + 1 * g.val = g.val; rw [e62]; omega)
  show Blk.blkM (iblk m c 0 t) (iblk m c 1 t) (iblk m c 2 t) (iblk m c 3 t) (iblk m c 4 t) (ix3 q cc g)
    = msgKArr (V m c main_arg2) (V m c main_v10) (V m c main_arg3) (V m c main_v11) (V m c main_arg5)
        (((cfg0.win 6).blk t).view.emb (ix3 q cc g))
  refine (Blk.blkM_spec _ _ _ _ _ (V m c main_arg2) (V m c main_v10) (V m c main_arg3) (V m c main_v11) (V m c main_arg5)
      q cc g ⟨t.val * 2000 + q.val, row_lt t q⟩ ?_ ?_ ?_ ?_ ?_).trans
    (congrArg (msgKArr (V m c main_arg2) (V m c main_v10) (V m c main_arg3) (V m c main_v11) (V m c main_arg5)) eemb.symm)
  · intro f
    show V m c main_v10 (((cfg0.win 0).blk t).view.emb (ix2 q f)) = V m c main_v10 (ix2 ⟨t.val * 2000 + q.val, row_lt t q⟩ f)
    refine congrArg (V m c main_v10) (funext fun a => Fin.ext ?_)
    match a with
    | ⟨0, _⟩ => show win0_0.index t (0 : Fin 2) * 2000 + 1 * q.val = t.val * 2000 + q.val; rw [e00]; omega
    | ⟨1, _⟩ => show win0_0.index t (1 : Fin 2) * 128 + 1 * f.val = f.val; rw [e01]; omega
  · show V m c main_arg2 (((cfg0.win 1).blk t).view.emb (ix2 q 0)) = V m c main_arg2 (ix2 ⟨t.val * 2000 + q.val, row_lt t q⟩ 0)
    refine congrArg (V m c main_arg2) (funext fun a => Fin.ext ?_)
    match a with
    | ⟨0, _⟩ => show win0_1.index t (0 : Fin 2) * 2000 + 1 * q.val = t.val * 2000 + q.val; rw [e10]; omega
    | ⟨1, _⟩ => show win0_1.index t (1 : Fin 2) * 1 + 1 * 0 = 0; rw [e11]
  · intro k
    show V m c main_arg3 (((cfg0.win 2).blk t).view.emb (ix2 q k)) = V m c main_arg3 (ix2 ⟨t.val * 2000 + q.val, row_lt t q⟩ k)
    refine congrArg (V m c main_arg3) (funext fun a => Fin.ext ?_)
    match a with
    | ⟨0, _⟩ => show win0_2.index t (0 : Fin 2) * 2000 + 1 * q.val = t.val * 2000 + q.val; rw [e20]; omega
    | ⟨1, _⟩ => show win0_2.index t (1 : Fin 2) * 3 + 1 * k.val = k.val; rw [e21]; omega
  · intro f g'
    show V m c main_v11 (((cfg0.win 3).blk t).view.emb (ix2 f g')) = V m c main_v11 (ix2 f g')
    refine congrArg (V m c main_v11) (funext fun a => Fin.ext ?_)
    match a with
    | ⟨0, _⟩ => show win0_3.index t (0 : Fin 2) * 128 + 1 * f.val = f.val; rw [e30]; omega
    | ⟨1, _⟩ => show win0_3.index t (1 : Fin 2) * 128 + 1 * g'.val = g'.val; rw [e31]; omega
  · intro g'
    show V m c main_arg5 (((cfg0.win 4).blk t).view.emb (ix1 g')) = V m c main_arg5 (ix1 g')
    refine congrArg (V m c main_arg5) (funext fun a => Fin.ext ?_)
    match a with
    | ⟨0, _⟩ => show win0_4.index t (0 : Fin 1) * 128 + 1 * g'.val = g'.val; rw [e40]; omega

/-! ## The blocks tile the arrays -/

theorem mem_blk5 (t : Fin cfg0.N) (i : S320000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v12_0).slice (win0_5.rect t)).set ↔ _
  rw [View.set_slice_whole, Rect.mem_set_unit]
  exact Iff.rfl

theorem mem_blk6 (t : Fin cfg0.N) (i : S320000x3x128.Idx) :
    i ∈ ((cfg0.win 6).blk t).view.set ↔ ∀ a : Fin 3, win0_6.index t a * S2000x3x128.size a ≤ (i a).val ∧ (i a).val < win0_6.index t a * S2000x3x128.size a + S2000x3x128.size a := by
  show i ∈ ((View.whole main_v12_1).slice (win0_6.rect t)).set ↔ _
  rw [View.set_slice_whole, Rect.mem_set_unit]
  exact Iff.rfl

/-- Pair row P lies in the block of point P / 2000. -/
theorem cover5 (i : S320000x128.Idx) :
    ∃ t : Fin cfg0.N, (cfg0.win 5).flush t = true ∧ i ∈ ((cfg0.win 5).blk t).view.set := by
  have hi0 : (i 0).val < 320000 := (i 0).isLt
  have hi1 : (i 1).val < 128 := (i 1).isLt
  have hN : grid0.N = 160 := N_0
  have ht : (i 0).val / 2000 < grid0.N := by omega
  obtain ⟨-, -, -, -, -, -, -, -, -, e50, e51, -⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

theorem cover6 (i : S320000x3x128.Idx) :
    ∃ t : Fin cfg0.N, (cfg0.win 6).flush t = true ∧ i ∈ ((cfg0.win 6).blk t).view.set := by
  have hi0 : (i 0).val < 320000 := (i 0).isLt
  have hi1 : (i 1).val < 3 := (i 1).isLt
  have hi2 : (i 2).val < 128 := (i 2).isLt
  have hN : grid0.N = 160 := N_0
  have ht : (i 0).val / 2000 < grid0.N := by omega
  obtain ⟨-, -, -, -, -, -, -, -, -, -, -, e60, e61, e62⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 3) * 2000 ≤ (i 0).val ∧ (i 0).val < win0_6.index ⟨(i 0).val / 2000, ht⟩ (0 : Fin 3) * 2000 + 2000
    rw [e60]; show (i 0).val / 2000 * 2000 ≤ (i 0).val ∧ (i 0).val < (i 0).val / 2000 * 2000 + 2000; omega
  | ⟨1, _⟩ =>
    show win0_6.index ⟨(i 0).val / 2000, ht⟩ (1 : Fin 3) * 3 ≤ (i 1).val ∧ (i 1).val < win0_6.index ⟨(i 0).val / 2000, ht⟩ (1 : Fin 3) * 3 + 3
    rw [e61]; omega
  | ⟨2, _⟩ =>
    show win0_6.index ⟨(i 0).val / 2000, ht⟩ (2 : Fin 3) * 128 ≤ (i 2).val ∧ (i 2).val < win0_6.index ⟨(i 0).val / 2000, ht⟩ (2 : Fin 3) * 128 + 128
    rw [e62]; omega

/-! ## The two output arrays after the run -/

theorem final5 (c : Dev nD) :
    (dats m 0 c).arrAt 5 cfg0.N = weightedArr (V m c main_arg2) (V m c main_v10) :=
  (dats m 0 c).arrAt_eq_of_cover 5 _ (fun t _ => flushed5_eq m c t) cover5

theorem final6 (c : Dev nD) :
    (dats m 0 c).arrAt 6 cfg0.N
      = msgKArr (V m c main_arg2) (V m c main_v10) (V m c main_arg3) (V m c main_v11) (V m c main_arg5) :=
  (dats m 0 c).arrAt_eq_of_cover 6 _ (fun t _ => flushed6_eq m c t) cover6

end Cert.KernelIdeal.KValue

end
-- ==== Proof.KRun.lean ====
/-
  The kernel program's result: the common tail of the whole-array weighted embeddings and messages.

  The frame run leaves the two output arrays at what the points wrote back (the whole-array functions, since the
  blocks tile them) and every other buffer as the host lines after the region leave it; the last of those lines
  writes the result, which is therefore the tail applied to the receiving indices and the two arrays, all three
  expressed in the program's arguments.
-/
import proofs.«127203_j77223511982115_1_alg».proof.Proof.KArrays

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.PairMsg (weightedArr msgKArr)

variable (m : (ℓ : Loc nD τ sig) → Buf (Elt Ideal) ℓ) (ρ : Dev nD → PrngReg)

/-- The kernel program's result as a function of its arguments. -/
def result (c : Dev nD) : S20000x256.Idx → EReal :=
  Glue.tail (Glue.recvIdx (m ((c.tc : Thread nD τ).loc main_arg1)))
    (weightedArr (m ((c.tc : Thread nD τ).loc main_arg2))
      (Glue.gathered (m ((c.tc : Thread nD τ).loc main_arg0)) (m ((c.tc : Thread nD τ).loc main_arg1))))
    (msgKArr (m ((c.tc : Thread nD τ).loc main_arg2))
      (Glue.gathered (m ((c.tc : Thread nD τ).loc main_arg0)) (m ((c.tc : Thread nD τ).loc main_arg1)))
      (m ((c.tc : Thread nD τ).loc main_arg3)) (Glue.transposed (m ((c.tc : Thread nD τ).loc main_arg4)))
      (m ((c.tc : Thread nD τ).loc main_arg5)))

/-- What the host lines after the region leave in the result buffer. -/
theorem tail_eq (c : Dev nD) :
    (Pipeline.afterTail₀ cfgs (dats m) 0 (V0 m) [hostOps1] c main_v24 : S20000x256.Idx → EReal) = result m c := by
  have h5 : Pipeline.withArrays (cfgs 0).spec c (V0 m c) (fun w => (dats m 0 c).arrAt w (cfgs 0).N) (Proc.devRef .tc main_v12_0)
      = (dats m 0 c).arrAt 5 cfg0.N := Pipeline.withArrays_arr spec0 launch0.win.arr_inj c _ _ 5
  have h6 : Pipeline.withArrays (cfgs 0).spec c (V0 m c) (fun w => (dats m 0 c).arrAt w (cfgs 0).N) (Proc.devRef .tc main_v12_1)
      = (dats m 0 c).arrAt 6 cfg0.N := Pipeline.withArrays_arr spec0 launch0.win.arr_inj c _ _ 6
  have h1 : Pipeline.withArrays (cfgs 0).spec c (V0 m c) (fun w => (dats m 0 c).arrAt w (cfgs 0).N) (Proc.devRef .tc main_v1)
      = V0 m c (Proc.devRef .tc main_v1) :=
    Pipeline.withArrays_of_ne _ c (V0 m c) _ main_v1 (by exact (by decide : ∀ w, Pipeline.arrRef spec0 w ≠ main_v1))
  unfold Pipeline.afterTail₀
  show StableHlo.after hostOps1 _ (Proc.devRef .tc main_v24) = _
  after_results
  rw [h5, h6, h1, final5, final6, V0_v1, V_v10, V_v11, V_main_arg2, V_main_arg3, V_main_arg5]
  rfl

/-- THE RUN, READ: every weakly fair execution terminates with the result buffer at the tail of the two whole-array
    functions of the arguments, and the arguments unchanged. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.KValue

end
-- ==== Proof.RefSide.lean ====
/-
  The reference program's value, read stage by stage, as the shared specification.

  The reference gathers the sending atoms' embeddings, weights them by the cutoff, divides each displacement by its
  Euclidean length, multiplies the unit vector into the weighted embedding (an outer product per pair), applies the
  linear layer to the last axis and adds the bias; then the common tail. Read at an index this is the array of
  messages in the reference's form, and the weighted embeddings and the tail are literally the shared ones.
-/
import proofs.«127203_j77223511982115_1_alg».proof.Proof.Gen.ReferenceIdeal.Read
import proofs.«127203_j77223511982115_1_alg».proof.Proof.Glue
import proofs.«127203_j77223511982115_1_alg».proof.Proof.PairMsg

set_option maxRecDepth 16384

noncomputable section

namespace Cert.ReferenceIdeal.RefValue

open Cert.ReferenceIdeal Cert.ReferenceIdeal.Read Idealize.ShloMosaic Idealize.ShloMosaic.ValueIdx
open Cert.PairMsg (weightedArr weightedAt msgRArr msgR len2)

/-- The reference's gather is the shared one. -/
theorem v10_eq (x0 : FVec Ideal S20000x128 .f32) (x1 : IVec S2x320000 32) :
    val_main_v10 (F := Ideal) x0 x1 = Cert.KernelIdeal.Glue.gathered x0 x1 := rfl

/-- The reference's weighted embeddings are the shared array. -/
theorem v12_eq (x0 : FVec Ideal S20000x128 .f32) (x1 : IVec S2x320000 32) (x2 : FVec Ideal S320000x1 .f32) :
    val_main_v12 (F := Ideal) x0 x1 x2 = weightedArr x2 (Cert.KernelIdeal.Glue.gathered x0 x1) := by
  funext i
  obtain ⟨p, f, rfl⟩ : ∃ (p : Fin 320000) (f : Fin 128), i = ix2 p f := ⟨i 0, i 1, eq_ix2 i⟩
  have e11 : idx_main_v11 (ix2 p f) = ix2 p 0 := funext fun a => Fin.ext (by match a with | ⟨0, _⟩ => rfl | ⟨1, _⟩ => rfl)
  rw [val_main_v12_apply, val_main_v11_apply, v10_eq, e11]
  rfl

/-- The reference's unit displacement: the quotient by the root of the squared length (the host's sum starts from
    zero). -/
theorem v18_at (x3 : FVec Ideal S320000x3 .f32) (p : Fin 320000) (c : Fin 3) :
    val_main_v18 (F := Ideal) x3 (ix2 p c) = Ideal.div (x3 (ix2 p c)) (Ideal.sqrt (len2 x3 p)) := by
  have e17 : idx_main_v17 (ix2 p c) = ix2 p 0 := funext fun a => Fin.ext (by match a with | ⟨0, _⟩ => rfl | ⟨1, _⟩ => rfl)
  have e16 : idx_main_call0_v2 (ix2 p 0) = ix1 p := funext fun a => Fin.ext (by match a with | ⟨0, _⟩ => rfl)
  have e0 : ∀ k : Fin 3, idx_main_call0_v1 (ix1 p) k = ix2 p k := fun k =>
    funext fun a => Fin.ext (by match a with | ⟨0, _⟩ => rfl | ⟨1, _⟩ => rfl)
  rw [val_main_v18_apply, val_main_v17_apply, e17, val_main_v16_apply, val_main_call0_v2_apply, e16,
    val_main_call0_v1_apply, val_main_call0_cst_apply]
  simp only [e0, val_main_call0_v0_apply]
  show Ideal.div (x3 (ix2 p c)) (Ideal.sqrt (Ideal.ofBits .f32 0x00000000#32 + ∑ k : Fin 3, x3 (ix2 p k) * x3 (ix2 p k))) = _
  rw [Ideal.ofBits_zero_f32, zero_add]
  rfl

/-- The reference's outer product of the unit displacement with the weighted embedding. -/
theorem v23_at (x0 : FVec Ideal S20000x128 .f32) (x1 : IVec S2x320000 32) (x2 : FVec Ideal S320000x1 .f32)
    (x3 : FVec Ideal S320000x3 .f32) (p : Fin 320000) (c : Fin 3) (k : Fin 128) :
    val_main_v23 (F := Ideal) x0 x1 x2 x3 (ix3 p c k)
      = val_main_v18 (F := Ideal) x3 (ix2 p c) * val_main_v12 (F := Ideal) x0 x1 x2 (ix2 p k) := by
  have e21 : idx_main_v19 (idx_main_v21 (ix3 p c k)) = ix2 p c :=
    funext fun a => Fin.ext (by match a with | ⟨0, _⟩ => rfl | ⟨1, _⟩ => rfl)
  have e22 : idx_main_v20 (idx_main_v22 (ix3 p c k)) = ix2 p k :=
    funext fun a => Fin.ext (by match a with | ⟨0, _⟩ => rfl | ⟨1, _⟩ => rfl)
  rw [val_main_v23_apply, val_main_v21_apply, val_main_v19_apply, e21, val_main_v22_apply, val_main_v20_apply, e22]
  rfl

/-- The reference's messages are the message array in the reference's form. -/
theorem v27_eq (x0 : FVec Ideal S20000x128 .f32) (x1 : IVec S2x320000 32) (x2 : FVec Ideal S320000x1 .f32)
    (x3 : FVec Ideal S320000x3 .f32) (x4 : FVec Ideal S128x128 .f32) (x5 : FVec Ideal S128 .f32) :
    val_main_v27 (F := Ideal) x0 x1 x2 x3 x4 x5 = msgRArr x2 (Cert.KernelIdeal.Glue.gathered x0 x1) x3 x4 x5 := by
  funext i
  obtain ⟨p, c, g, rfl⟩ : ∃ (p : Fin 320000) (c : Fin 3) (g : Fin 128), i = ix3 p c g := ⟨i 0, i 1, i 2, eq_ix3 i⟩
  have e26 : idx_main_v25 (idx_main_v26 (ix3 p c g)) = ix1 g := funext fun a => Fin.ext (by match a with | ⟨0, _⟩ => rfl)
  have el : ∀ k : Fin 128, lidx_main_v24 (ix3 p c g) k = ix3 p c k := fun k =>
    funext fun a => Fin.ext (by match a with | ⟨0, _⟩ => rfl | ⟨1, _⟩ => rfl | ⟨2, _⟩ => rfl)
  have er : ∀ k : Fin 128, ridx_main_v24 (ix3 p c g) k = ix2 g k := fun k =>
    funext fun a => Fin.ext (by match a with | ⟨0, _⟩ => rfl | ⟨1, _⟩ => rfl)
  rw [val_main_v27_apply, val_main_v24_apply, val_main_v26_apply, val_main_v25_apply, e26]
  show (∑ k : Fin 128, val_main_v23 (F := Ideal) x0 x1 x2 x3 (lidx_main_v24 (ix3 p c g) k) * x4 (ridx_main_v24 (ix3 p c g) k))
      + x5 (ix1 g) = msgR x2 (Cert.KernelIdeal.Glue.gathered x0 x1) x3 x4 x5 p c g
  unfold msgR
  refine congrArg (· + x5 (ix1 g)) (Finset.sum_congr rfl fun k _ => ?_)
  rw [el, er, v23_at, v18_at, v12_eq]
  rfl

/-- The reference's result is the common tail of its weighted embeddings and its messages. -/
theorem v36_eq (x0 : FVec Ideal S20000x128 .f32) (x1 : IVec S2x320000 32) (x2 : FVec Ideal S320000x1 .f32)
    (x3 : FVec Ideal S320000x3 .f32) (x4 : FVec Ideal S128x128 .f32) (x5 : FVec Ideal S128 .f32) :
    val_main_v36 (F := Ideal) x0 x1 x2 x3 x4 x5
      = Cert.KernelIdeal.Glue.tail (Cert.KernelIdeal.Glue.recvIdx x1) (val_main_v12 (F := Ideal) x0 x1 x2)
          (val_main_v27 (F := Ideal) x0 x1 x2 x3 x4 x5) := by
  unfold val_main_v36 val_main_v35 val_main_v34 val_main_v33 val_main_v32 val_main_v31 val_main_v30 val_main_v29
    val_main_v28 val_main_v15 val_main_v14 val_main_v13 val_main_cst val_main_cst_1 val_main_cst_2 val_main_cst_3
    val_main_v1 val_main_v0 Cert.KernelIdeal.Glue.tail Cert.KernelIdeal.Glue.recvIdx
  generalize val_main_v12 (F := Ideal) x0 x1 x2 = W
  generalize val_main_v27 (F := Ideal) x0 x1 x2 x3 x4 x5 = M
  rfl

end Cert.ReferenceIdeal.RefValue

end
-- ==== Proof.PreFacts.lean ====
/-
  The precondition, read back as mathematics.

  The printed predicate is the conjunction of six tests. Five of them say, of one float input each, that every
  entry x satisfies |x| < +inf; the sixth says that for every pair p the sum over k of r(p,k) * r(p,k) is above 0.
  Over the extended reals |x| is max x (-x), and max x (-x) < top holds exactly when x is neither infinity, that is,
  when x is a real. So from "the predicate is true" come: every entry of the four float inputs the messages read
  is a real, and every pair's squared displacement length is positive.
-/
import proofs.«127203_j77223511982115_1_alg».proof.Pre_finite_inputs
import proofs.«127203_j77223511982115_1_alg».proof.Proof.Gen.Pre_finite_inputs
import proofs.«127203_j77223511982115_1_alg».proof.Proof.PairMsg
import Idealize.ShloMosaic.Lib.ReduceAll
import Idealize.ShloMosaic.Lib.IdealHost
import Idealize.ShloMosaic.PureOps.Ideal
import Idealize.ShloMosaic.PureOps.Ideal.Laws
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The f32 pattern 0x7F800000 is plus infinity. -/
theorem ofBits_inf_f32 : Ideal.ofBits .f32 0x7F800000#32 = (⊤ : EReal) := by simp [Ideal.ofBits, Ideal.ieee]

/-- An extended real whose absolute value max x (-x) is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "less than" on extended reals gives the word 1 only where it holds. -/
theorem lt_of_cmp_olt {x y : EReal} (h : Ideal.cmp .olt x y = 1#1) : x < y := by
  by_contra hn
  simp [Ideal.cmp, hn] at h

/-- The comparison "greater than" on extended reals gives the word 1 only where it holds. -/
theorem lt_of_cmp_ogt {x y : EReal} (h : Ideal.cmp .ogt x y = 1#1) : y < x := by
  by_contra hn
  simp [Ideal.cmp, hn] at h

/-- One element of the test |x| < +inf being 1 says that element of x is a real. -/
theorem finite_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  rw [cmpf_apply, Ideal.cmpf_def, broadcastInDim_scalar_apply, constant_apply, ofBits_inf_f32] at h
  exact real_of_abs_lt_top _ (lt_of_cmp_olt h)

/-- One element of the test "the sum over k of r(p,k) * r(p,k) is above 0" being 1 says pair p's squared displacement
    length is positive: the host's sum along the last axis is zero plus the sum over the three coordinates. -/
theorem len2_pos_of_test (r : FVec Ideal S320000x3 .f32) (p : Fin 320000)
    (h : cmpf .ogt
        (Host.reduceAdd (mulf r r) (constant (F := Ideal) S_ .f32 0x00000000#32) Facts.reducesTo_S320000x3_S320000_d1 Facts.h_S_)
        (broadcastInDim S320000 ![] Facts.bcast_S_S320000 (constant (F := Ideal) S_ .f32 0x00000000#32)) (ix1 p) = 1#1) :
    0 < Cert.PairMsg.len2 r p := by
  rw [cmpf_apply, Ideal.cmpf_def, broadcastInDim_scalar_apply, hostReduceAdd_apply, constant_apply, constant_apply,
    Ideal.hostReduceAdd_single Facts.reducesTo_S320000x3_S320000_d1 (by decide), Ideal.ofBits_zero_f32, zero_add] at h
  have h2 := lt_of_cmp_ogt h
  unfold Cert.PairMsg.len2
  refine lt_of_lt_of_eq h2 (Finset.sum_congr rfl fun k _ => ?_)
  have e : ∀ j : S320000x3.Idx, j = ix2 p k → mulf r r j = r (ix2 p k) * r (ix2 p k) := fun j hj => by rw [hj]; rfl
  exact e _ (funext fun a => Fin.ext (by match a with | ⟨0, _⟩ => rfl | ⟨1, _⟩ => rfl))

/-- The precondition decoded: the four float inputs the messages read are real entrywise, and no pair's displacement is
    the zero vector. -/
theorem decode (a0 : FVec Ideal S20000x128 .f32) (a1 : IVec S2x320000 32) (a2 : FVec Ideal S320000x1 .f32)
    (a3 : FVec Ideal S320000x3 .f32) (a4 : FVec Ideal S128x128 .f32) (a5 : FVec Ideal S128 .f32)
    (h : Cert.Pre_finite_inputs.fn (F := Ideal) a0 a1 a2 a3 a4 a5 = fun _ => 1#1) :
    (∀ i, ∃ x : ℝ, a0 i = (x : EReal)) ∧ (∀ i, ∃ x : ℝ, a2 i = (x : EReal)) ∧ (∀ i, ∃ x : ℝ, a3 i = (x : EReal))
      ∧ (∀ i, ∃ x : ℝ, a4 i = (x : EReal)) ∧ (∀ p : Fin 320000, 0 < Cert.PairMsg.len2 a3 p) := by
  have h0 := congrFun h ix0
  dsimp only [fn, fn_part1] at h0
  obtain ⟨h15, h6⟩ := IntOp.andi_eq_one.1 h0
  obtain ⟨h14, _⟩ := IntOp.andi_eq_one.1 h15
  obtain ⟨h13, h4⟩ := IntOp.andi_eq_one.1 h14
  obtain ⟨h12, h3⟩ := IntOp.andi_eq_one.1 h13
  obtain ⟨h1, h2⟩ := IntOp.andi_eq_one.1 h12
  refine ⟨fun i => ?_, fun i => ?_, fun i => ?_, fun i => ?_, fun p => ?_⟩
  · exact finite_of_test a0 _ i (Host.reduce_andi_all _ _ _ _ ix0 h1 i)
  · exact finite_of_test a2 _ i (Host.reduce_andi_all _ _ _ _ ix0 h2 i)
  · exact finite_of_test a3 _ i (Host.reduce_andi_all _ _ _ _ ix0 h3 i)
  · exact finite_of_test a4 _ i (Host.reduce_andi_all _ _ _ _ ix0 h4 i)
  · exact len2_pos_of_test a3 p (Host.reduce_andi_all _ _ _ _ ix0 h6 (ix1 p))

end Cert.PreFacts

end
-- ==== Proof.lean ====
/-
  The kernel computes, per atom pair, the cutoff-weighted neighbour embedding and the three directional messages
  (unit displacement × linear layer of the weighted embedding + bias), in one pass over blocks of 2000 pairs; the
  host gathers before it and scatter-adds, takes norms and joins after it. The reference does the same with the unit
  vector as a quotient r / |r| and the outer product formed before the linear layer.

  Over the extended reals the two agree wherever every float input is finite and no displacement is the zero vector:
  for a real s > 0, x · rsqrt s = x / sqrt s, and a real scalar moves across the finite contraction sum
  (Proof/PairMsg.lean). The zero displacement is excluded by the precondition because there the reference itself
  divides zero by zero; at it the two programs differ (0 · ⊤ = 0 against 0 / 0 = ⊥).

  The modules: PairMsg (specification and algebra), PreFacts (the precondition read as "finite" and "|r|² > 0"),
  Glue (the shared host arithmetic, named), KBlock / KSpec / KArrays / KRun (the kernel's blocks, arrays and run as
  values), RefSide (the reference's stages as the same functions). The word-level kernel and the idealized kernel run
  by their generated frames; the reference by its generated run.
-/
import proofs.«127203_j77223511982115_1_alg».proof.Defs
import proofs.«127203_j77223511982115_1_alg».proof.Proof.Gen.Kernel.Frame
import proofs.«127203_j77223511982115_1_alg».proof.Proof.Gen.KernelIdeal.Frame
import proofs.«127203_j77223511982115_1_alg».proof.Proof.Gen.ReferenceIdeal.Run
import proofs.«127203_j77223511982115_1_alg».proof.Proof.Gen.ReferenceIdeal.Read
import proofs.«127203_j77223511982115_1_alg».proof.Proof.Gen.Pre_finite_inputs
import proofs.«127203_j77223511982115_1_alg».proof.Proof.KRun
import proofs.«127203_j77223511982115_1_alg».proof.Proof.RefSide
import proofs.«127203_j77223511982115_1_alg».proof.Proof.PreFacts

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end at the common tail of the weighted embeddings and the messages; the messages' two forms are one
    array on finite inputs with no zero displacement. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, f4, hpos⟩ := Cert.PreFacts.decode _ _ _ _ _ _ (hpre c)
  rw [Cert.ReferenceIdeal.Read.val_main_v36_eq, Cert.ReferenceIdeal.RefValue.v36_eq, Cert.ReferenceIdeal.RefValue.v12_eq,
    Cert.ReferenceIdeal.RefValue.v27_eq, (hagree c).1, (hagree c).2.1, (hagree c).2.2.1, (hagree c).2.2.2.1,
    (hagree c).2.2.2.2.1, (hagree c).2.2.2.2.2]
  have hmsg := Cert.PairMsg.msgKArr_eq_msgRArr _ _ _ _ _
    (m ((c.tc : Thread Cert.KernelIdeal.nD Cert.KernelIdeal.τ).loc Cert.KernelIdeal.main_arg5))
    (Cert.KernelIdeal.Glue.transposed_apply _) f2
    (Cert.KernelIdeal.Glue.gathered_finite _ (m ((c.tc : Thread Cert.KernelIdeal.nD Cert.KernelIdeal.τ).loc Cert.KernelIdeal.main_arg1)) f0)
    f3 f4 hpos
  show _ = Cert.KernelIdeal.KValue.result m c
  unfold Cert.KernelIdeal.KValue.result
  rw [hmsg]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
